-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x16384 : Shape := ⟨2, ![256, 16384]⟩
abbrev S16384 : Shape := ⟨1, ![16384]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x16384 : S_.BroadcastsInDim S256x16384 (![] : Fin 0 → Fin S256x16384.rank)
  reducesTo_S256x16384_S_d0_1 : S256x16384.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4096x256 .f32) (main_arg1 : FVec F S256x16384 .f32) (main_arg2 : FVec F S16384 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x16384 .f32 := Host.absf main_arg1
  let main_cst_0 : FVec F S_ .f32 := constant S_ .f32 0x7F800000#32
  let main_v5 : FVec F S256x16384 .f32 := broadcastInDim S256x16384 ![] bcast_S_S256x16384 main_cst_0
  let main_v6 : IVec S256x16384 1 := cmpf .olt main_v4 main_v5
  let main_c_1 : IVec S_ 1 := constantI S_ 1 1#1
  let main_v7 : IVec S_ 1 := (fun x v => Host.reduce IntOp.andi x v reducesTo_S256x16384_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4096x256 : Shape := ⟨2, ![4096, 256]⟩
abbrev S256x16384 : Shape := ⟨2, ![256, 16384]⟩
abbrev S16384 : Shape := ⟨1, ![16384]⟩
abbrev S4096x16384 : Shape := ⟨2, ![4096, 16384]⟩
abbrev S1024x256 : Shape := ⟨2, ![1024, 256]⟩
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S4096x256x64 : Shape := ⟨3, ![4096, 256, 64]⟩

abbrev nBuf : Space → Nat
  | .hbm => 5
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S256x16384, .f32⟩
  | .hbm, ⟨2, _⟩ => ⟨S16384, .f32⟩
  | .hbm, ⟨3, _⟩ => ⟨S4096x16384, .f32⟩
  | .hbm, ⟨4, _⟩ => ⟨S4096x256x64, .f32⟩
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S256x1024, .f32⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  iota_S256x1024_d0_w32 : S256x1024.Iotas .tc 32 [0]
  iota_S256x1024_d1_w32 : S256x1024.Iotas .tc 32 [1]
  natLt_1_32 : 1 < 32
  inb_S256x1024_S256x1024_0_0 : ∀ a, (![0, 0] : Fin 2 → Nat) a + S256x1024.size a ≤ S256x1024.size a
  h_S256x1024 : 0 < S256x1024.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S4096x16384_S4096x256x64 : S4096x16384.ShapeCasts S4096x256x64
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x16384.size a
  hwx0_1 : ∀ i : grid0.Coords, EltTy.bits .f32 = 32 ∨ (Rect.block (s := S256x16384) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S16384.size a
  hwx0_2 : ∀ i : grid0.Coords, EltTy.bits .f32 = 32 ∨ (Rect.block (s := S16384) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x16384.size a
  hwx0_3 : ∀ i : grid0.Coords, EltTy.bits .f32 = 32 ∨ (Rect.block (s := S4096x16384) S1024x1024.size (cc0_transform_3 i) (hinb0_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S256x16384 : Shape := ⟨2, ![256, 16384]⟩
abbrev S16384 : Shape := ⟨1, ![16384]⟩
abbrev S_ : Shape := ⟨0, ![]⟩
abbrev S1x16384 : Shape := ⟨2, ![1, 16384]⟩
abbrev S256 : Shape := ⟨1, ![256]⟩
abbrev S256x1 : Shape := ⟨2, ![256, 1]⟩
abbrev S4096x16384 : Shape := ⟨2, ![4096, 16384]⟩
abbrev S4096x256x64 : Shape := ⟨3, ![4096, 256, 64]⟩

abbrev nBuf : Space → Nat
  | .hbm => 35
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16384, .f32⟩
  | .hbm, ⟨2, _⟩ => ⟨S16384, .f32⟩
  | .hbm, ⟨3, _⟩ => ⟨S16384, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S1x16384, .i32⟩
  | .hbm, ⟨23, _⟩ => ⟨S256, .i32⟩
  | .hbm, ⟨24, _⟩ => ⟨S256x1, .i32⟩
  | .hbm, ⟨25, _⟩ => ⟨S256x16384, .i32⟩
  | .hbm, ⟨26, _⟩ => ⟨S256x16384, .i32⟩
  | .hbm, ⟨27, _⟩ => ⟨S256x16384, .i1⟩
  | .hbm, ⟨28, _⟩ => ⟨S256x16384, .f32⟩
  | .hbm, ⟨29, _⟩ => ⟨S256x16384, .f32⟩
  | .hbm, ⟨30, _⟩ => ⟨S4096x16384, .f32⟩
  | .hbm, ⟨31, _⟩ => ⟨S1x16384, .f32⟩
  | .hbm, ⟨32, _⟩ => ⟨S4096x16384, .f32⟩
  | .hbm, ⟨33, _⟩ => ⟨S4096x16384, .f32⟩
  | .hbm, ⟨34, _⟩ => ⟨S4096x256x64, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S1x16384_1 : S16384.BroadcastsInDim S1x16384 (![1] : Fin 1 → Fin S1x16384.rank)
  bcast_S256_S256x1_0 : S256.BroadcastsInDim S256x1 (![0] : Fin 1 → Fin S256x1.rank)
  bcast_S1x16384_S256x16384_0_1 : S1x16384.BroadcastsInDim S256x16384 (![0, 1] : Fin 2 → Fin S256x16384.rank)
  bcast_S256x1_S256x16384_0_1 : S256x1.BroadcastsInDim S256x16384 (![0, 1] : Fin 2 → Fin S256x16384.rank)
  bcast_S1x16384_S4096x16384_0_1 : S1x16384.BroadcastsInDim S4096x16384 (![0, 1] : Fin 2 → Fin S4096x16384.rank)
  shapeCasts_S4096x16384_S4096x256x64 : S4096x16384.ShapeCasts S4096x256x64
  dot_S4096x256_S256x16384_S4096x16384_1_0_0_1_n_n_wf : DotDims.WF S4096x256 S256x16384 S4096x16384 [1] [0] [0] [1] [] []

variable [Facts₀]

def dot_S4096x256_S256x16384_S4096x16384_1_0_0_1_n_n : DotDims S4096x256 S256x16384 S4096x16384 where
  lhsContracting := [1]
  rhsContracting := [0]
  lhsNonContracting := [0]
  rhsNonContracting := [1]
  lhsBatch := []
  rhsBatch := []
  wf := dot_S4096x256_S256x16384_S4096x16384_1_0_0_1_n_n_wf

class Facts : Prop extends Facts₀ where

variable [Facts]
-- ==== Proof.Spec.lean ====
/-
  The mathematics both programs compute: a linear layer whose weight matrix has each input feature's own block of
  64 output columns masked out, plus a bias.

      out[p, q] = (∑ k < 256, x[p, k] · (if ⌊q / 64⌋ ≠ k then w[k, q] else 0)) + b[q]        p < 4096, q < 16384

  read on the extended reals, and the result re-laid as [4096, 256, 64] in row-major order. The kernel selects the
  weight or a zero by the mask; the reference multiplies the weight by the mask converted to 1.0 / 0.0: on the
  extended reals `w · 1 = w` and `w · 0 = 0` for every `w`, so the two summands agree with no finiteness needed.
  Both programs obtain ⌊q / 64⌋ from the truncating signed division by a sign-and-remainder correction that never
  fires on a non-negative column number; that word arithmetic is decided here once, for every column.
-/
import Idealize.ShloMosaic.PureOps.Ideal
import Idealize.ShloMosaic.PureOps
import Idealize.ShloMosaic.Lib.ValueIdx

noncomputable section

namespace Cert.MaskedLinear

open Idealize.ShloMosaic Idealize.ShloMosaic.ValueIdx

abbrev SX : Shape := ⟨2, ![4096, 256]⟩
abbrev SW : Shape := ⟨2, ![256, 16384]⟩
abbrev SB : Shape := ⟨1, ![16384]⟩
abbrev SO : Shape := ⟨2, ![4096, 16384]⟩
abbrev SR : Shape := ⟨3, ![4096, 256, 64]⟩

/-- One summand: input feature `k`'s weight into column `q`, masked out when `k` is the feature that owns the block of
    64 columns holding `q`. -/
def term (w : SW.Idx → EReal) (k : Fin 256) (q : Fin 16384) : EReal :=
  if q.val / 64 ≠ k.val then w (ix2 k q) else 0

/-- Entry (p, q) of the layer's output. -/
def cell (x : SX.Idx → EReal) (w : SW.Idx → EReal) (b : SB.Idx → EReal) (p : Fin 4096) (q : Fin 16384) : EReal :=
  (∑ k : Fin 256, x (ix2 p k) * term w k q) + b (ix1 q)

/-- The layer's output as a [4096, 16384] array. -/
def out (x : SX.Idx → EReal) (w : SW.Idx → EReal) (b : SB.Idx → EReal) : SO.Idx → EReal :=
  fun i => cell x w b (i 0) (i 1)

theorem out_ix2 (x : SX.Idx → EReal) (w : SW.Idx → EReal) (b : SB.Idx → EReal) (p : Fin 4096) (q : Fin 16384) :
    out x w b (ix2 p q) = cell x w b p q := rfl

/-- The result both programs return: the output re-laid as [4096, 256, 64], the same elements in row-major order. -/
def res (x : SX.Idx → EReal) (w : SW.Idx → EReal) (b : SB.Idx → EReal) (h : SO.ShapeCasts SR) : SR.Idx → EReal :=
  shapeCast SR (out x w b) h

/-! ## The block number of a column, in 32-bit words -/

/-- Floor division by 64 as the kernel's vector unit computes it: the truncated quotient, less one when the dividend's
    sign differs from the divisor's and the remainder is not zero. -/
def fdivV (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

/-- The same on the host, where the signs come from `stablehlo.sign`. -/
def fdivH (x : BitVec 32) : BitVec 32 :=
  Scalar.select
    (IntOp.andi
      (IntOp.cmpi .ne (if x = 0 then (0 : BitVec 32) else if x.msb then (-1 : BitVec 32) else (1 : BitVec 32))
        (if (64#32 : BitVec 32) = 0 then (0 : BitVec 32) else if (64#32 : BitVec 32).msb then (-1 : BitVec 32) else (1 : BitVec 32)))
      (IntOp.cmpi .ne (IntOp.remsi .host x 64#32) 0#32))
    (IntOp.subi (IntOp.divsi .host x 64#32) 1#32) (IntOp.divsi .host x 64#32)

/-- On a column number 64·a + r the vector unit's floor division gives the block number a. -/
theorem fdivV_block : ∀ (a : Fin 256) (r : Fin 64), fdivV (BitVec.ofNat 32 (64 * a.val + r.val)) = BitVec.ofNat 32 a.val := by
  decide +kernel

/-- And so does the host's. -/
theorem fdivH_block : ∀ (a : Fin 256) (r : Fin 64), fdivH (BitVec.ofNat 32 (64 * a.val + r.val)) = BitVec.ofNat 32 a.val := by
  decide +kernel

theorem fdivV_col (q : Fin 16384) : fdivV (BitVec.ofNat 32 q.val) = BitVec.ofNat 32 (q.val / 64) := by
  have h := fdivV_block ⟨q.val / 64, by have := q.isLt; omega⟩ ⟨q.val % 64, Nat.mod_lt _ (by decide)⟩
  have e : 64 * (q.val / 64) + q.val % 64 = q.val := Nat.div_add_mod q.val 64
  simpa only [e] using h

theorem fdivH_col (q : Fin 16384) : fdivH (BitVec.ofNat 32 q.val) = BitVec.ofNat 32 (q.val / 64) := by
  have h := fdivH_block ⟨q.val / 64, by have := q.isLt; omega⟩ ⟨q.val % 64, Nat.mod_lt _ (by decide)⟩
  have e : 64 * (q.val / 64) + q.val % 64 = q.val := Nat.div_add_mod q.val 64
  simpa only [e] using h

/-- Two small numbers are different words exactly when they are different numbers. -/
theorem cmpi_ne_ofNat (a b : Nat) (ha : a < 4294967296) (hb : b < 4294967296) :
    IntOp.cmpi .ne (BitVec.ofNat 32 a) (BitVec.ofNat 32 b) = if a ≠ b then 1#1 else 0#1 := by
  have hinj : BitVec.ofNat 32 a = BitVec.ofNat 32 b → a = b := by
    intro h
    have h2 := congrArg BitVec.toNat h
    rw [BitVec.toNat_ofNat, BitVec.toNat_ofNat] at h2
    have e : (2 : Nat) ^ 32 = 4294967296 := by norm_num
    rw [e, Nat.mod_eq_of_lt ha, Nat.mod_eq_of_lt hb] at h2
    exact h2
  show BitVec.ofBool (BitVec.ofNat 32 a != BitVec.ofNat 32 b) = _
  by_cases hab : a = b
  · subst hab
    rw [if_neg (fun h => h rfl)]
    have : (BitVec.ofNat 32 a != BitVec.ofNat 32 a) = false := by simp
    rw [this]; rfl
  · rw [if_pos hab]
    have : (BitVec.ofNat 32 a != BitVec.ofNat 32 b) = true := by
      rw [bne_iff_ne]; exact fun h => hab (hinj h)
    rw [this]; rfl

/-- The mask bit of (k, q): set exactly when feature `k` does not own column `q`'s block. -/
theorem mask_bit (k : Fin 256) (q : Fin 16384) :
    IntOp.cmpi .ne (BitVec.ofNat 32 (q.val / 64)) (BitVec.ofNat 32 k.val) = if q.val / 64 ≠ k.val then 1#1 else 0#1 :=
  cmpi_ne_ofNat _ _ (by have := q.isLt; omega) (by have := k.isLt; omega)

/-! ## The two ways of masking a weight, on the extended reals -/

theorem select_term (w : SW.Idx → EReal) (k : Fin 256) (q : Fin 16384) :
    Scalar.select (if q.val / 64 ≠ k.val then 1#1 else 0#1) (w (ix2 k q)) (0 : EReal) = term w k q := by
  unfold term
  by_cases h : q.val / 64 ≠ k.val
  · rw [if_pos h, if_pos h]; exact select_one _ _
  · rw [if_neg h, if_neg h]; exact select_zero _ _

end Cert.MaskedLinear

end
-- ==== Proof.KernelPayload.lean ====
/-
  The kernel's block computation read at one element.

  At grid point i the kernel holds a [1024, 256] block of x, a [256, 1024] block of the weights (columns
  1024 · (i 1) … 1024 · (i 1) + 1023 of the layer) and the matching 1024 entries of the bias. Row p, lane q of the block
  it stores is

      (∑ k < 256, x[p, k] · (if ⌊(1024 · (i 1) + q) / 64⌋ ≠ k then w[k, q] else 0)) + b[q]

  on the extended reals. Three readings make it up: the block product into a zero accumulator is the sum over the one
  contracted axis, re-indexed by that axis's coordinate k; the bias, cast to one row and repeated down the rows, is the
  bias at the lane; and the mask word at (k, q) — the floor division by 64 of the column number, compared with the row
  number k — is the bit of "k does not own the column's block of 64", so the select keeps the weight or puts zero. The
  column number never wraps: 1024 · a + q < 16384 for a block a < 16 and a lane q < 1024.
-/
import proofs.«153031_j25228637896773_1_alg».proof.Proof.Gen.KernelIdeal.Skeleton
import proofs.«153031_j25228637896773_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- The block product's dimension numbers: rows × contraction times contraction × columns. -/
abbrev D := dot_S1024x256_S256x1024_S1024x1024_1_0_0_1_n_n

theorem lhs_0 (j : S1024x1024.Idx) (k : D.contr.Idx) : (D.lhsIdx j k 0).val = (j 0).val := by
  simp [DotDims.lhsIdx, D, dot_S1024x256_S256x1024_S1024x1024_1_0_0_1_n_n]; rfl

theorem lhs_1 (j : S1024x1024.Idx) (k : D.contr.Idx) : (D.lhsIdx j k 1).val = (k ⟨0, by decide⟩).val :=
  DotDims.lhsIdx_val_of_single D rfl j k

theorem rhs_0 (j : S1024x1024.Idx) (k : D.contr.Idx) : (D.rhsIdx j k 0).val = (k ⟨0, by decide⟩).val :=
  DotDims.rhsIdx_val_of_single D rfl j k

theorem rhs_1 (j : S1024x1024.Idx) (k : D.contr.Idx) : (D.rhsIdx j k 1).val = (j 1).val := by
  simp [DotDims.rhsIdx, D, dot_S1024x256_S256x1024_S1024x1024_1_0_0_1_n_n]; rfl

/-- The contraction index is its one coordinate, the input feature k < 256. -/
abbrev cE : D.contr.Idx ≃ Fin 256 := contrEquiv1 D 256 rfl rfl

/-- At output (p, q) and feature k the left operand is read at (p, k) … -/
theorem lhsIdx_ix (p q : Fin 1024) (k : Fin 256) : D.lhsIdx (ix2 p q) (cE.symm k) = ix2 p k := by
  funext a
  match a with
  | ⟨0, _⟩ => exact Fin.ext (lhs_0 _ _)
  | ⟨1, _⟩ => exact Fin.ext ((lhs_1 _ _).trans (contrEquiv1_symm_val D 256 rfl rfl k))

/-- … and the right operand at (k, q). -/
theorem rhsIdx_ix (p q : Fin 1024) (k : Fin 256) : D.rhsIdx (ix2 p q) (cE.symm k) = ix2 k q := by
  funext a
  match a with
  | ⟨0, _⟩ => exact Fin.ext ((rhs_0 _ _).trans (contrEquiv1_symm_val D 256 rfl rfl k))
  | ⟨1, _⟩ => exact Fin.ext (rhs_1 _ _)

/-- The block product into the zero accumulator, at (p, q): the sum over the 256 features of the products. -/
theorem matmul_ix {φ₁ φ₂ : FTy} (X : FVec Ideal S1024x256 φ₁) (W : FVec Ideal S256x1024 φ₂) (p q : Fin 1024) :
    matmul D none X W (constant S1024x1024 .f32 0x00000000#32) (ix2 p q) = ∑ k : Fin 256, X (ix2 p k) * W (ix2 k q) := by
  refine (Ideal.matmul_constant_zero_apply D none X W (ix2 p q)).trans ?_
  refine (Equiv.sum_comp cE.symm _).symm.trans ?_
  refine Finset.sum_congr rfl fun k _ => ?_
  rw [lhsIdx_ix, rhsIdx_ix]

/-- The bias block as a row, repeated down the 1024 rows, at (p, q): the bias at q. -/
theorem bias_ix (bb : Vec Ideal S1024 .f32) (p q : Fin 1024) :
    broadcastTo S1024x1024 (shapeCast S1x1024 bb shapeCasts_S1024_S1x1024) broadcasts_S1x1024_S1024x1024 (ix2 p q) = bb (ix1 q) :=
  (broadcastTo_1b_ab_apply _ _ p q).trans (shapeCast_a_1a_apply bb _ 0 q)

open Cert.MaskedLinear (fdivV fdivV_col mask_bit)

/-- The column number of lane q in column block a, as the kernel's words spell it: the lane's number (counted over the
    lane axis alone) plus the block's first column, 1024 · a. -/
def colWord (a q : Nat) : BitVec 32 :=
  IntOp.addi (BitVec.ofNat 32 (0 * 1024 + q)) (Scalar.muli (BitVec.ofNat 32 a) 1024#32)

/-- No wrap-around: for a block a < 16 and a lane q < 1024 that word is the number 1024 · a + q. -/
theorem colWord_eq (a q : Nat) (ha : a < 16) (hq : q < 1024) : colWord a q = BitVec.ofNat 32 (1024 * a + q) := by
  apply BitVec.eq_of_toNat_eq
  show ((BitVec.ofNat 32 (0 * 1024 + q)) + (BitVec.ofNat 32 a) * 1024#32).toNat = _
  simp only [BitVec.toNat_add, BitVec.toNat_mul, BitVec.toNat_ofNat]
  omega

/-- The mask bit of feature k and lane q in column block a: set exactly when k does not own the column's block of 64. -/
theorem mask_word (a q : Nat) (ha : a < 16) (hq : q < 1024) (k : Fin 256) :
    IntOp.cmpi .ne (fdivV (colWord a q)) (BitVec.ofNat 32 (0 * 256 + k.val))
      = if (1024 * a + q) / 64 ≠ k.val then 1#1 else 0#1 := by
  have hc : 1024 * a + q < 16384 := by omega
  rw [colWord_eq a q ha hq, Nat.zero_mul, Nat.zero_add]
  exact (congrArg (IntOp.cmpi .ne · (BitVec.ofNat 32 k.val)) (fdivV_col ⟨1024 * a + q, hc⟩)).trans
    (mask_bit k ⟨1024 * a + q, hc⟩)

/-- The masked weight at (k, q): the weight where the bit is set, zero where it is not. -/
theorem sel_ix (a q : Nat) (ha : a < 16) (hq : q < 1024) (k : Fin 256) (w : EReal) :
    Scalar.select (IntOp.cmpi .ne (fdivV (colWord a q)) (BitVec.ofNat 32 (0 * 256 + k.val))) w
        (Scalar.ofBits (F := Ideal) .f32 0x00000000#32)
      = if (1024 * a + q) / 64 ≠ k.val then w else 0 := by
  rw [mask_word a q ha hq k]
  by_cases h : (1024 * a + q) / 64 ≠ k.val
  · rw [if_pos h, if_pos h]; exact select_one _ _
  · rw [if_neg h, if_neg h]; exact (select_zero _ _).trans Ideal.ofBits_zero_f32

/-- THE BLOCK COMPUTATION AT ONE ELEMENT. At grid point i, lane q of the block is column 1024 · (i 1) + q of the layer;
    row p, lane q of the block the kernel stores is the sum over the 256 input features of the x block's (p, k) times the
    weight block's (k, q) — or zero when feature k owns the column's block of 64 — plus the bias block's q. -/
theorem pay_apply (i : grid0.Coords) (wb : Vec Ideal S256x1024 .f32) (xb : Vec Ideal S1024x256 .f32)
    (bb : Vec Ideal S1024 .f32) (p q : Fin 1024) :
    k0_pay1 (F := Ideal) i wb xb bb (ix2 p q)
      = (∑ k : Fin 256, xb (ix2 p k) * (if (1024 * (i 1).val + q.val) / 64 ≠ k.val then wb (ix2 k q) else 0))
        + bb (ix1 q) := by
  unfold k0_pay1
  refine (addf_apply _ _ (ix2 p q)).trans ?_
  refine congrArg₂ (· + ·) ?_ (bias_ix bb p q)
  refine (matmul_ix _ _ p q).trans ?_
  refine Finset.sum_congr rfl fun k _ => ?_
  refine congrArg (xb (ix2 p k) * ·) ?_
  exact sel_ix (i 1).val q.val (i 1).isLt q.isLt k (wb (ix2 k q))

end Cert.KernelIdeal.Payload

end
-- ==== Proof.KernelValue.lean ====
/-
  What the kernel's program returns, at the ideal instance.

  The pallas_call runs on a 4 × 16 grid; point (r, s) loads rows 1024·r … 1024·r + 1023 of `x` (all 256 columns),
  columns 1024·s … 1024·s + 1023 of the weights (all 256 rows) and of the bias, and stores one 1024 × 1024 tile of
  the [4096, 16384] output at block (r, s). Entry (p, q) of that tile is the masked product-sum of Spec.lean at row
  1024·r + p and column 1024·s + q: the mask's column number is the lane plus 1024 times the grid's second coordinate,
  which is exactly the column of the whole array the lane holds. So every tile is a block of ONE whole-array function,
  `MaskedLinear.out` of the three argument arrays; the 64 tiles cover the array; and the host's reshape after the call
  re-lays that array as [4096, 256, 64].
-/
import proofs.«153031_j25228637896773_1_alg».proof.Proof.FrameKernelIdeal
import proofs.«153031_j25228637896773_1_alg».proof.Proof.Spec
import proofs.«153031_j25228637896773_1_alg».proof.Proof.KernelPayload
import Idealize.ShloMosaic.Lib.Pipeline.Value
import Idealize.ShloMosaic.Lib.ValueIdx
import Idealize.ShloMosaic.Lib.StableHlo.Run

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Idealize.ShloMosaic.StableHlo
open Cert.MaskedLinear (out cell term res)
open Cert.KernelIdeal.Payload (pay_apply)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## One tile is a block of the whole-array function -/

/-- A tile entry against the whole-array function: if the three loaded blocks are the argument arrays read at row offset
    `1024 · r` and column offset `1024 · s`, `s` the grid's second coordinate, then the body's value at tile index `j` is
    `out` at the array index `e` that sits at those offsets from `j`. -/
theorem tile_entry (i : grid0.Coords) (r s : Nat) (hs : (i 1).val = s) (hs16 : s ≤ 15)
    (X : Cert.MaskedLinear.SX.Idx → EReal) (W : Cert.MaskedLinear.SW.Idx → EReal) (B : Cert.MaskedLinear.SB.Idx → EReal)
    (wb : Vec Ideal S256x1024 .f32) (xb : Vec Ideal S1024x256 .f32) (bb : Vec Ideal S1024 .f32)
    (ex : S1024x256.Idx → Cert.MaskedLinear.SX.Idx) (ew : S256x1024.Idx → Cert.MaskedLinear.SW.Idx) (eb : S1024.Idx → Cert.MaskedLinear.SB.Idx)
    (hx : xb = fun y => X (ex y)) (hw : wb = fun y => W (ew y)) (hb : bb = fun y => B (eb y))
    (hex0 : ∀ y, (ex y 0).val = r * 1024 + 1 * (y 0).val) (hex1 : ∀ y, (ex y 1).val = 0 * 256 + 1 * (y 1).val)
    (hew0 : ∀ y, (ew y 0).val = 0 * 256 + 1 * (y 0).val) (hew1 : ∀ y, (ew y 1).val = s * 1024 + 1 * (y 1).val)
    (heb0 : ∀ y, (eb y 0).val = s * 1024 + 1 * (y 0).val)
    (j : S1024x1024.Idx) (e : Cert.MaskedLinear.SO.Idx)
    (he0 : (e 0).val = r * 1024 + 1 * (j 0).val) (he1 : (e 1).val = s * 1024 + 1 * (j 1).val) :
    k0_pay1 (F := Ideal) i wb xb bb j = out X W B e := by
  obtain ⟨p, q, rfl⟩ : ∃ (p q : Fin 1024), j = ix2 p q := ⟨j 0, j 1, eq_ix2 j⟩
  obtain ⟨P, Q, rfl⟩ : ∃ (P : Fin 4096) (Q : Fin 16384), e = ix2 P Q := ⟨e 0, e 1, eq_ix2 e⟩
  have hP : P.val = r * 1024 + 1 * p.val := he0
  have hQ : Q.val = s * 1024 + 1 * q.val := he1
  refine (pay_apply i wb xb bb p q).trans ?_
  rw [Cert.MaskedLinear.out_ix2]
  unfold Cert.MaskedLinear.cell
  subst hx hw hb
  beta_reduce
  have hbias : B (eb (ix1 q)) = B (ix1 Q) := by
    refine congrArg B ?_
    rw [eq_ix1 (eb (ix1 q))]
    refine congrArg ix1 (Fin.ext ?_)
    have := heb0 (ix1 q)
    show (eb (ix1 q) 0).val = Q.val
    rw [this, hQ]
  rw [hbias]
  refine congrArg (· + B (ix1 Q)) (Finset.sum_congr rfl fun k _ => ?_)
  have hxk : X (ex (ix2 p k)) = X (ix2 P k) := by
    refine congrArg X ?_
    rw [eq_ix2 (ex (ix2 p k))]
    have h0 := hex0 (ix2 p k)
    have h1 := hex1 (ix2 p k)
    have e0 : ex (ix2 p k) 0 = P := Fin.ext (by rw [h0, hP])
    have e1 : ex (ix2 p k) 1 = k := Fin.ext (by rw [h1]; show 0 * 256 + 1 * k.val = k.val; omega)
    rw [e0, e1]
    rfl
  have hwk : W (ew (ix2 k q)) = W (ix2 k Q) := by
    refine congrArg W ?_
    rw [eq_ix2 (ew (ix2 k q))]
    have h0 := hew0 (ix2 k q)
    have h1 := hew1 (ix2 k q)
    have e0 : ew (ix2 k q) 0 = k := Fin.ext (by rw [h0]; show 0 * 256 + 1 * k.val = k.val; omega)
    have e1 : ew (ix2 k q) 1 = Q := Fin.ext (by rw [h1, hQ])
    rw [e0, e1]
    rfl
  rw [hxk, hwk]
  unfold Cert.MaskedLinear.term
  have hcol : 1024 * (i 1).val + q.val = Q.val := by rw [hs, hQ]; omega
  rw [hcol]

/-! ## The index maps, decided over the 64 grid points -/

/-- At every point the x block's row index is the output tile's row index and its column index 0; the weight block's row
    index is 0 and its column index the tile's; the bias block's index is the tile's column index; the grid's second
    coordinate is the tile's column index; and the tile's indices stay below 4 and 16. -/
theorem idx_facts : ∀ t : Fin cfg0.N,
      win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 1) = win0_3.index t (1 : Fin 2)
    ∧ (grid0.coords t 1).val = win0_3.index t (1 : Fin 2)
    ∧ win0_3.index t (0 : Fin 2) ≤ 3 ∧ win0_3.index t (1 : Fin 2) ≤ 15 :=
  (by decide +kernel : ∀ t : Fin grid0.N, _)

/-- Every tile position is some point's. -/
theorem idx_onto : ∀ (q0 : Fin 4) (q1 : Fin 16), ∃ t : Fin cfg0.N, win0_3.index t = ![q0.val, q1.val] :=
  (by decide +kernel : ∀ (q0 : Fin 4) (q1 : Fin 16), ∃ t : Fin grid0.N, win0_3.index t = ![q0.val, q1.val])

/-! ## What a point writes back, and the array after the run -/

/-- Point `t` writes back block `t` of `out` of the argument arrays as the region finds them. -/
theorem flushed_eq (c : Dev nD) (t : Fin cfg0.N) :
    (dats m 0 c).flushed 3 t
      = ((cfg0.win 3).blk t).view.read (Elt Ideal) (out (V m c main_arg0) (V m c main_arg1) (V m c main_arg2)) := by
  show (cfg0.win 3).cut (grid0.coords t) ((dats m 0 c).after 3 t) = _
  rw [after0_3]
  unfold out0_3
  rw [View.canon_unit_zero hz2]
  simp only [View.ld_unit_zero (S := S256x1024) hz2, View.ld_unit_zero (S := S1024x256) hz2, View.ld_unit_zero (S := S1024) hz1]
  obtain ⟨e00, e01, e10, e11, e20, eg, b0, b1⟩ := idx_facts t
  funext j
  show k0_pay1 (F := Ideal) (grid0.coords t) (iblk m c 1 t) (iblk m c 0 t) (iblk m c 2 t) j
      = out (V m c main_arg0) (V m c main_arg1) (V m c main_arg2) (((cfg0.win 3).blk t).view.emb j)
  refine tile_entry (grid0.coords t) (win0_3.index t (0 : Fin 2)) (win0_3.index t (1 : Fin 2)) eg b1
    (V m c main_arg0) (V m c main_arg1) (V m c main_arg2) (iblk m c 1 t) (iblk m c 0 t) (iblk m c 2 t)
    (fun y => ((cfg0.win 0).blk t).view.emb y) (fun y => ((cfg0.win 1).blk t).view.emb y) (fun y => ((cfg0.win 2).blk t).view.emb y)
    rfl rfl rfl ?_ ?_ ?_ ?_ ?_ j _ ?_ ?_
  · intro y; show win0_0.index t (0 : Fin 2) * 1024 + 1 * (y 0).val = _; rw [e00]
  · intro y; show win0_0.index t (1 : Fin 2) * 256 + 1 * (y 1).val = _; rw [e01]
  · intro y; show win0_1.index t (0 : Fin 2) * 256 + 1 * (y 0).val = _; rw [e10]
  · intro y; show win0_1.index t (1 : Fin 2) * 1024 + 1 * (y 1).val = _; rw [e11]
  · intro y; show win0_2.index t (0 : Fin 1) * 1024 + 1 * (y 0).val = _; rw [e20]
  · show win0_3.index t (0 : Fin 2) * 1024 + 1 * (j 0).val = _; rfl
  · show win0_3.index t (1 : Fin 2) * 1024 + 1 * (j 1).val = _; rfl

/-- An index of the output array is in point `t`'s tile iff each coordinate is in the tile's range on its axis. -/
theorem mem_blk (t : Fin cfg0.N) (i : S4096x16384.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- The tiles cover the array: index (P, Q) lies in the tile at (P / 1024, Q / 1024). -/
theorem cover (i : S4096x16384.Idx) : ∃ t : Fin cfg0.N, (cfg0.win 3).flush t = true ∧ i ∈ ((cfg0.win 3).blk t).view.set := by
  have hi0 : (i 0).val < 4096 := (i 0).isLt
  have hi1 : (i 1).val < 16384 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the run is `out` of the argument arrays. -/
theorem final3 (c : Dev nD) :
    (dats m 0 c).arrAt 3 cfg0.N = out (V m c main_arg0) (V m c main_arg1) (V m c main_arg2) :=
  (dats m 0 c).arrAt_eq_of_cover 3 _ (fun t _ => flushed_eq m c t) cover

/-! ## After the host's reshape -/

theorem v1_mem_rest : main_v1 ∈ Pipeline.restRefs sig (cfgs 0).spec := by decide

theorem kept0 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
theorem kept1 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
theorem kept2 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))

/-- After the run the result buffer holds the output array re-laid as [4096, 256, 64]. -/
theorem post_v1 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v1)
      = res (m ((c.tc : Thread nD τ).loc main_arg0)) (m ((c.tc : Thread nD τ).loc main_arg1)) (m ((c.tc : Thread nD τ).loc main_arg2))
          shapeCasts_S4096x16384_S4096x256x64 := by
  refine ((h c).2 main_v1 v1_mem_rest).trans ?_
  unfold Pipeline.afterTail₀
  show StableHlo.after hostOps1 _ (Proc.devRef .tc main_v1) = _
  after_results
  have harr : Pipeline.withArrays (cfgs 0).spec c (V0 m c) (fun w => (dats m 0 c).arrAt w (cfgs 0).N) (Proc.devRef .tc main_v0)
      = out (m ((c.tc : Thread nD τ).loc main_arg0)) (m ((c.tc : Thread nD τ).loc main_arg1)) (m ((c.tc : Thread nD τ).loc main_arg2)) :=
    (Pipeline.withArrays_arr spec0 launch0.win.arr_inj c (V0 m c) (fun w => (dats m 0 c).arrAt w cfg0.N) 3).trans
      ((final3 m c).trans (by rw [V_main_arg0, V_main_arg1, V_main_arg2]))
  rw [harr]
  rfl

/-- The kernel's program at the ideal instance: every weakly fair execution terminates with the result buffer at the
    masked linear layer of the argument arrays, re-laid as [4096, 256, 64], and the arguments unchanged. -/
theorem run : θ_run defs (onTc (τ := τ) (main (F := Ideal))) ⟨m, fun _ => 0, ρ⟩ fun r => ∀ c : Dev nD,
      r.2.mem ((c.tc : Thread nD τ).loc main_v1)
        = res (m ((c.tc : Thread nD τ).loc main_arg0)) (m ((c.tc : Thread nD τ).loc main_arg1)) (m ((c.tc : Thread nD τ).loc main_arg2))
            shapeCasts_S4096x16384_S4096x256x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨post_v1 m r h c, kept0 m r h c, kept1 m r h c, kept2 m r h c⟩) (run_main m ρ)

end Cert.KernelIdeal.KValue

end
-- ==== Proof.RefRun.lean ====
/-
  The reference program's run, read back as one pure term of its three arguments.

  @main is a straight line of host operations once its call of @floor_divide (which itself calls @_where) is
  unfolded: the column numbers 0 … 16383 and the constant 64, the seventeen operations of the floor division
  over the call's own buffers, then the mask, the masked weights, the product, the bias and the re-laying.
  The term below composes the operations' functions in that order; the run states that the result buffer
  ends at it and the arguments end unchanged.
-/
import proofs.«153031_j25228637896773_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]
variable [Facts]

/-! ## The composed term -/

/-- The block number ⌊q / 64⌋ of every column q, as the host spells the floor division: the truncated quotient,
    less one where the signs of dividend and divisor differ and the remainder is not zero. -/
def blockNo : IVec S16384 32 :=
  select
    (andi
      (cmpi .ne (signi (iotaInDim S16384 32 0))
        (broadcastInDim S16384 ![] bcast_S_S16384 (signi (constantI S_ 32 64#32))))
      (cmpi .ne
        (Host.remsi (iotaInDim S16384 32 0) (broadcastInDim S16384 ![] bcast_S_S16384 (constantI S_ 32 64#32)))
        (broadcastInDim S16384 ![] bcast_S_S16384 (constantI S_ 32 0#32))))
    (subi
      (Host.divsi (iotaInDim S16384 32 0) (broadcastInDim S16384 ![] bcast_S_S16384 (constantI S_ 32 64#32)))
      (broadcastInDim S16384 ![] bcast_S_S16384 (constantI S_ 32 1#32)))
    (Host.divsi (iotaInDim S16384 32 0) (broadcastInDim S16384 ![] bcast_S_S16384 (constantI S_ 32 64#32)))

/-- The mask bit of (k, q): the column's block number, laid along the rows, against the row number, laid along
    the columns. -/
def maskBits : IVec S256x16384 1 :=
  cmpi .ne
    (broadcastInDim S256x16384 ![0, 1] bcast_S1x16384_S256x16384_0_1
      (broadcastInDim S1x16384 ![1] bcast_S16384_S1x16384_1 blockNo))
    (broadcastInDim S256x16384 ![0, 1] bcast_S256x1_S256x16384_0_1
      (broadcastInDim S256x1 ![0] bcast_S256_S256x1_0 (iotaInDim S256 32 0)))

/-- The layer's [4096, 16384] output: x times the weights multiplied by the mask as a float, plus the bias laid
    along the rows. -/
def refOut (x : (⟨S4096x256, .f32⟩ : BufTy).Contents (Elt F)) (w : (⟨S256x16384, .f32⟩ : BufTy).Contents (Elt F))
    (b : (⟨S16384, .f32⟩ : BufTy).Contents (Elt F)) : (⟨S4096x16384, .f32⟩ : BufTy).Contents (Elt F) :=
  addf
    (Host.dotGeneral dot_S4096x256_S256x16384_S4096x16384_1_0_0_1_n_n none x
      (mulf w (uitofp (F := F) .f32 maskBits)))
    (broadcastInDim S4096x16384 ![0, 1] bcast_S1x16384_S4096x16384_0_1
      (broadcastInDim S1x16384 ![1] bcast_S16384_S1x16384_1 b))

/-- What the reference returns: the output re-laid as [4096, 256, 64]. -/
def refTerm (x : (⟨S4096x256, .f32⟩ : BufTy).Contents (Elt F)) (w : (⟨S256x16384, .f32⟩ : BufTy).Contents (Elt F))
    (b : (⟨S16384, .f32⟩ : BufTy).Contents (Elt F)) : (⟨S4096x256x64, .f32⟩ : BufTy).Contents (Elt F) :=
  shapeCast S4096x256x64 (refOut x w b) shapeCasts_S4096x16384_S4096x256x64

/-! ## The operations, in order -/

/-- @main's 32 operations with the two calls unfolded: the column numbers and the constant 64; @floor_divide's
    sixteen over the call's buffers and @_where's select into the buffer that becomes @main's %1; then @main's
    remaining thirteen. -/
abbrev ops : List (HloOp τ sig (Elt F)) :=
  [ nullary main_v0 (iotaInDim S16384 32 0),
    nullary main_c (constantI S_ 32 64#32),
    TRef.unary (.of main_c) main_call0.v0 id,
    TRef.unary main_call0.v0 main_call0.v1 (broadcastInDim S16384 ![] bcast_S_S16384),
    TRef.binary (.of main_v0) main_call0.v1 main_call0.v2 Host.divsi,
    TRef.unary (.of main_v0) main_call0.v3 signi,
    TRef.unary main_call0.v0 main_call0.v4 signi,
    TRef.unary main_call0.v4 main_call0.v5 (broadcastInDim S16384 ![] bcast_S_S16384),
    TRef.binary main_call0.v3 main_call0.v5 main_call0.v6 (cmpi .ne),
    TRef.unary main_call0.v0 main_call0.v7 (broadcastInDim S16384 ![] bcast_S_S16384),
    TRef.binary (.of main_v0) main_call0.v7 main_call0.v8 Host.remsi,
    TRef.nullary main_call0.c (constantI S_ 32 0#32),
    TRef.unary main_call0.c main_call0.v9 (broadcastInDim S16384 ![] bcast_S_S16384),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S16384 ![] bcast_S_S16384),
    TRef.binary main_call0.v2 main_call0.v12 main_call0.v13 subi,
    TRef.ternary main_call0.v11 main_call0.v13 main_call0.v2 main_call0.call0.v0 select,
    unary main_v1 main_v2 (broadcastInDim S1x16384 ![1] bcast_S16384_S1x16384_1 : (⟨S16384, .i32⟩ : BufTy).Contents (Elt F) → (⟨S1x16384, .i32⟩ : BufTy).Contents (Elt F)),
    nullary main_v3 (iotaInDim S256 32 0),
    unary main_v3 main_v4 (broadcastInDim S256x1 ![0] bcast_S256_S256x1_0 : (⟨S256, .i32⟩ : BufTy).Contents (Elt F) → (⟨S256x1, .i32⟩ : BufTy).Contents (Elt F)),
    unary main_v2 main_v5 (broadcastInDim S256x16384 ![0, 1] bcast_S1x16384_S256x16384_0_1 : (⟨S1x16384, .i32⟩ : BufTy).Contents (Elt F) → (⟨S256x16384, .i32⟩ : BufTy).Contents (Elt F)),
    unary main_v4 main_v6 (broadcastInDim S256x16384 ![0, 1] bcast_S256x1_S256x16384_0_1 : (⟨S256x1, .i32⟩ : BufTy).Contents (Elt F) → (⟨S256x16384, .i32⟩ : BufTy).Contents (Elt F)),
    binary main_v5 main_v6 main_v7 (cmpi .ne : (⟨S256x16384, .i32⟩ : BufTy).Contents (Elt F) → (⟨S256x16384, .i32⟩ : BufTy).Contents (Elt F) → (⟨S256x16384, .i1⟩ : BufTy).Contents (Elt F)),
    unary main_v7 main_v8 (uitofp .f32 : (⟨S256x16384, .i1⟩ : BufTy).Contents (Elt F) → (⟨S256x16384, .f32⟩ : BufTy).Contents (Elt F)),
    binary main_arg1 main_v8 main_v9 (mulf : (⟨S256x16384, .f32⟩ : BufTy).Contents (Elt F) → (⟨S256x16384, .f32⟩ : BufTy).Contents (Elt F) → (⟨S256x16384, .f32⟩ : BufTy).Contents (Elt F)),
    binary main_arg0 main_v9 main_v10 ((fun l r => Host.dotGeneral dot_S4096x256_S256x16384_S4096x16384_1_0_0_1_n_n none l r) : (⟨S4096x256, .f32⟩ : BufTy).Contents (Elt F) → (⟨S256x16384, .f32⟩ : BufTy).Contents (Elt F) → (⟨S4096x16384, .f32⟩ : BufTy).Contents (Elt F)),
    unary main_arg2 main_v11 (broadcastInDim S1x16384 ![1] bcast_S16384_S1x16384_1 : (⟨S16384, .f32⟩ : BufTy).Contents (Elt F) → (⟨S1x16384, .f32⟩ : BufTy).Contents (Elt F)),
    unary main_v11 main_v12 (broadcastInDim S4096x16384 ![0, 1] bcast_S1x16384_S4096x16384_0_1 : (⟨S1x16384, .f32⟩ : BufTy).Contents (Elt F) → (⟨S4096x16384, .f32⟩ : BufTy).Contents (Elt F)),
    binary main_v10 main_v12 main_v13 (addf : (⟨S4096x16384, .f32⟩ : BufTy).Contents (Elt F) → (⟨S4096x16384, .f32⟩ : BufTy).Contents (Elt F) → (⟨S4096x16384, .f32⟩ : BufTy).Contents (Elt F)),
    reshape main_v13 main_v14 rfl shapeCasts_S4096x16384_S4096x256x64 ]

set_option maxRecDepth 1024 in
/-- @main is that straight line: the two functions unfolded at their calls, the sequencing re-associated. -/
theorem main_eq (c : Dev nD) : main (F := F) c = seq ops := by
  simp only [main, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., unary_bufs_sub .., nullary_bufs_sub .., unary_bufs_sub .., unary_bufs_sub .., unary_bufs_sub ..,
    binary_bufs_sub .., unary_bufs_sub .., binary_bufs_sub .., binary_bufs_sub .., unary_bufs_sub .., unary_bufs_sub ..,
    binary_bufs_sub .., reshape_bufs_sub ..⟩

/-! ## What the buffers hold after the line -/

set_option maxRecDepth 4096 in
set_option maxHeartbeats 1000000 in
/-- The result buffer after the line is the composed term of the arguments' contents. -/
theorem out_eq (V : Valuation τ sig (Elt F)) :
    after ops V (main_v14 : DevRef τ sig)
      = refTerm (V (main_arg0 : DevRef τ sig)) (V (main_arg1 : DevRef τ sig)) (V (main_arg2 : DevRef τ sig)) := by
  after_results_simp <;> (try simp only [TRef.ofBuf, TRef.toBuf, cast_eq]) <;> rfl

set_option maxRecDepth 4096 in
theorem arg0_eq (V : Valuation τ sig (Elt F)) :
    after ops V (main_arg0 : DevRef τ sig) = V (main_arg0 : DevRef τ sig) := by
  after_results_simp

set_option maxRecDepth 4096 in
theorem arg1_eq (V : Valuation τ sig (Elt F)) :
    after ops V (main_arg1 : DevRef τ sig) = V (main_arg1 : DevRef τ sig) := by
  after_results_simp

set_option maxRecDepth 4096 in
theorem arg2_eq (V : Valuation τ sig (Elt F)) :
    after ops V (main_arg2 : DevRef τ sig) = V (main_arg2 : DevRef τ sig) := by
  after_results_simp

/-- On every device, for any float values, from any memory with zero counters: every weakly fair execution of
    @main terminates with the result buffer at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = refTerm (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v14).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's value on the extended reals: the term its run composes is the masked linear layer of the
  specification, re-laid as [4096, 256, 64].

  Read at (p, q) the output is the dot product over the 256 input features of x[p, k] with w[k, q] times the mask's
  float, plus b[q]. The mask's float at (k, q) is 1 when ⌊q / 64⌋ ≠ k and 0 otherwise, the block number ⌊q / 64⌋
  being the host's floor division of the column number by 64; and w · 1 = w, w · 0 = 0 for every extended real w,
  so each summand is the specification's.
-/
import proofs.«153031_j25228637896773_1_alg».proof.Proof.RefRun
import proofs.«153031_j25228637896773_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.RefRun Idealize.ShloMosaic Idealize.ShloMosaic.ValueIdx Idealize.SL.Sem
open Cert.MaskedLinear
open Facts₀ Facts

variable [Facts]

/-! ## The broadcasts read at an index

Each lays an array along a new or a size-one axis: the result at (a, b) is the operand at the coordinates its own
axes keep, a size-one axis read at 0. -/

/-- A [16384] vector laid as the one row of a [1, 16384] array. -/
theorem bcast_row_apply {α : Type} (v : S16384.Idx → α) (r : Fin 1) (q : Fin 16384) :
    broadcastInDim S1x16384 ![1] bcast_S16384_S1x16384_1 v (ix2 r q) = v (ix1 q) := by
  unfold broadcastInDim
  refine congrArg v ?_
  funext a
  match a with
  | ⟨0, _⟩ => rfl

/-- A [1, 16384] row repeated down 256 rows. -/
theorem bcast_rows256_apply {α : Type} (v : S1x16384.Idx → α) (k : Fin 256) (q : Fin 16384) :
    broadcastInDim S256x16384 ![0, 1] bcast_S1x16384_S256x16384_0_1 v (ix2 k q) = v (ix2 0 q) := by
  unfold broadcastInDim
  refine congrArg v ?_
  funext a
  match a with
  | ⟨0, _⟩ => rfl
  | ⟨1, _⟩ => rfl

/-- A [256] vector laid as the one column of a [256, 1] array. -/
theorem bcast_col_apply {α : Type} (v : S256.Idx → α) (k : Fin 256) (c : Fin 1) :
    broadcastInDim S256x1 ![0] bcast_S256_S256x1_0 v (ix2 k c) = v (ix1 k) := by
  unfold broadcastInDim
  refine congrArg v ?_
  funext a
  match a with
  | ⟨0, _⟩ => rfl

/-- A [256, 1] column repeated across 16384 columns. -/
theorem bcast_cols_apply {α : Type} (v : S256x1.Idx → α) (k : Fin 256) (q : Fin 16384) :
    broadcastInDim S256x16384 ![0, 1] bcast_S256x1_S256x16384_0_1 v (ix2 k q) = v (ix2 k 0) := by
  unfold broadcastInDim
  refine congrArg v ?_
  funext a
  match a with
  | ⟨0, _⟩ => rfl
  | ⟨1, _⟩ => rfl

/-- A [1, 16384] row repeated down 4096 rows. -/
theorem bcast_rows4096_apply {α : Type} (v : S1x16384.Idx → α) (p : Fin 4096) (q : Fin 16384) :
    broadcastInDim S4096x16384 ![0, 1] bcast_S1x16384_S4096x16384_0_1 v (ix2 p q) = v (ix2 0 q) := by
  unfold broadcastInDim
  refine congrArg v ?_
  funext a
  match a with
  | ⟨0, _⟩ => rfl
  | ⟨1, _⟩ => rfl

/-! ## The mask -/

/-- An integer comparison of two arrays is the comparison of their elements. -/
theorem cmpi_apply {s : Shape} {w : Nat} (c : CmpIPredicate) (x y : IVec s w) (i : s.Idx) :
    cmpi c x y i = IntOp.cmpi c (x i) (y i) := rfl

/-- The block number of column q is the host's floor division of the word q by 64. -/
theorem blockNo_apply (q : Fin 16384) : blockNo (ix1 q) = fdivH (BitVec.ofNat 32 q.val) := rfl

/-- The mask bit of (k, q) compares column q's block number with the word k. -/
theorem maskBits_apply (k : Fin 256) (q : Fin 16384) :
    maskBits (ix2 k q) = IntOp.cmpi .ne (blockNo (ix1 q)) (BitVec.ofNat 32 k.val) := by
  unfold maskBits
  rw [cmpi_apply, bcast_rows256_apply, bcast_row_apply, bcast_cols_apply, bcast_col_apply]
  rfl

/-- An unsigned one-bit word converts to the extended real 1 when set … -/
theorem uitofp_one : (FloatOps.uitofp (F := Ideal) .f32 (1#1 : BitVec 1) : EReal) = 1 := by
  show (((1#1 : BitVec 1).toNat : ℝ) : EReal) = 1
  norm_num

/-- … and to 0 when clear. -/
theorem uitofp_zero : (FloatOps.uitofp (F := Ideal) .f32 (0#1 : BitVec 1) : EReal) = 0 := by
  show (((0#1 : BitVec 1).toNat : ℝ) : EReal) = 0
  norm_num

/-- The mask's float at (k, q): 1 when feature k does not own column q's block, else 0. -/
theorem mask_apply (k : Fin 256) (q : Fin 16384) :
    (uitofp (F := Ideal) .f32 maskBits : FVec Ideal S256x16384 .f32) (ix2 k q)
      = if q.val / 64 ≠ k.val then (1 : EReal) else 0 := by
  show FloatOps.uitofp (F := Ideal) .f32 (maskBits (ix2 k q)) = _
  rw [maskBits_apply, blockNo_apply, fdivH_col, mask_bit]
  by_cases h : q.val / 64 ≠ k.val
  · rw [if_pos h, if_pos h]; exact uitofp_one
  · rw [if_neg h, if_neg h]; exact uitofp_zero

/-- A weight times the mask's float is the specification's masked weight: w · 1 = w and w · 0 = 0. -/
theorem masked_weight (w : S256x16384.Idx → EReal) (k : Fin 256) (q : Fin 16384) :
    w (ix2 k q) * (if q.val / 64 ≠ k.val then (1 : EReal) else 0) = term w k q := by
  unfold term
  by_cases h : q.val / 64 ≠ k.val
  · rw [if_pos h, if_pos h, mul_one]
  · rw [if_neg h, if_neg h, mul_zero]

/-! ## The product's operand indices

The product contracts the left operand's axis 1 with the right operand's axis 0: at output (p, q) and contraction
position k the left index is (p, k), the right one (k, q). -/

theorem lidx0 (p : Fin 4096) (q : Fin 16384) (k : (dot_S4096x256_S256x16384_S4096x16384_1_0_0_1_n_n).contr.Idx) :
    ((dot_S4096x256_S256x16384_S4096x16384_1_0_0_1_n_n).lhsIdx (ix2 p q) k 0).val = p.val := by
  simp [DotDims.lhsIdx, dot_S4096x256_S256x16384_S4096x16384_1_0_0_1_n_n]
  rfl

theorem lidx1 (p : Fin 4096) (q : Fin 16384) (i : Fin 256) :
    ((dot_S4096x256_S256x16384_S4096x16384_1_0_0_1_n_n).lhsIdx (ix2 p q)
      ((contrEquiv1 dot_S4096x256_S256x16384_S4096x16384_1_0_0_1_n_n 256 rfl rfl).symm i) 1).val = i.val := by
  rw [DotDims.lhsIdx_val_of_single _ (cl := 1) rfl]
  exact contrEquiv1_symm_val _ 256 rfl rfl i

theorem ridx0 (p : Fin 4096) (q : Fin 16384) (i : Fin 256) :
    ((dot_S4096x256_S256x16384_S4096x16384_1_0_0_1_n_n).rhsIdx (ix2 p q)
      ((contrEquiv1 dot_S4096x256_S256x16384_S4096x16384_1_0_0_1_n_n 256 rfl rfl).symm i) 0).val = i.val := by
  rw [DotDims.rhsIdx_val_of_single _ (cr := 0) rfl]
  exact contrEquiv1_symm_val _ 256 rfl rfl i

theorem ridx1 (p : Fin 4096) (q : Fin 16384) (k : (dot_S4096x256_S256x16384_S4096x16384_1_0_0_1_n_n).contr.Idx) :
    ((dot_S4096x256_S256x16384_S4096x16384_1_0_0_1_n_n).rhsIdx (ix2 p q) k 1).val = q.val := by
  simp [DotDims.rhsIdx, dot_S4096x256_S256x16384_S4096x16384_1_0_0_1_n_n]
  rfl

theorem lhs_eq (p : Fin 4096) (q : Fin 16384) (i : Fin 256) :
    (dot_S4096x256_S256x16384_S4096x16384_1_0_0_1_n_n).lhsIdx (ix2 p q)
      ((contrEquiv1 dot_S4096x256_S256x16384_S4096x16384_1_0_0_1_n_n 256 rfl rfl).symm i) = ix2 p i := by
  funext a
  match a with
  | ⟨0, _⟩ => exact Fin.ext (lidx0 p q _)
  | ⟨1, _⟩ => exact Fin.ext (lidx1 p q i)

theorem rhs_eq (p : Fin 4096) (q : Fin 16384) (i : Fin 256) :
    (dot_S4096x256_S256x16384_S4096x16384_1_0_0_1_n_n).rhsIdx (ix2 p q)
      ((contrEquiv1 dot_S4096x256_S256x16384_S4096x16384_1_0_0_1_n_n 256 rfl rfl).symm i) = ix2 i q := by
  funext a
  match a with
  | ⟨0, _⟩ => exact Fin.ext (ridx0 p q i)
  | ⟨1, _⟩ => exact Fin.ext (ridx1 p q _)

/-- The host's product at (p, q) is the sum over the 256 features of the operands' products. -/
theorem dot_apply (x : S4096x256.Idx → EReal) (y : S256x16384.Idx → EReal) (p : Fin 4096) (q : Fin 16384) :
    (Host.dotGeneral (F := Ideal) (φ₁ := .f32) (φ₂ := .f32) dot_S4096x256_S256x16384_S4096x16384_1_0_0_1_n_n none x y) (ix2 p q)
      = ∑ k : Fin 256, x (ix2 p k) * y (ix2 k q) := by
  simp only [Host.dotGeneral]
  rw [Ideal.dotGeneral_apply]
  refine (Equiv.sum_comp (contrEquiv1 dot_S4096x256_S256x16384_S4096x16384_1_0_0_1_n_n 256 rfl rfl).symm _).symm.trans ?_
  refine Finset.sum_congr rfl fun k _ => ?_
  rw [lhs_eq, rhs_eq]

/-! ## The output, and the result -/

/-- The reference's [4096, 16384] output is the specification's. -/
theorem refOut_eq (x : (⟨S4096x256, .f32⟩ : BufTy).Contents (Elt Ideal)) (w : (⟨S256x16384, .f32⟩ : BufTy).Contents (Elt Ideal))
    (b : (⟨S16384, .f32⟩ : BufTy).Contents (Elt Ideal)) : refOut (F := Ideal) x w b = out x w b := by
  funext i
  obtain ⟨p, q, rfl⟩ : ∃ (p : Fin 4096) (q : Fin 16384), i = ix2 p q := ⟨i 0, i 1, eq_ix2 i⟩
  rw [out_ix2]
  unfold refOut cell
  rw [addf_apply, bcast_rows4096_apply, bcast_row_apply, dot_apply]
  refine congrArg (· + b (ix1 q)) ?_
  refine Finset.sum_congr rfl fun k _ => ?_
  rw [mulf_apply, mask_apply, masked_weight]

/-- The reference's result is the specification's: the same output, re-laid the same way. -/
theorem refTerm_eq (x : (⟨S4096x256, .f32⟩ : BufTy).Contents (Elt Ideal)) (w : (⟨S256x16384, .f32⟩ : BufTy).Contents (Elt Ideal))
    (b : (⟨S16384, .f32⟩ : BufTy).Contents (Elt Ideal)) :
    refTerm (F := Ideal) x w b = res x w b shapeCasts_S4096x16384_S4096x256x64 :=
  congrArg (fun o => shapeCast S4096x256x64 o shapeCasts_S4096x16384_S4096x256x64) (refOut_eq x w b)

/-- On every device, from any memory with zero counters: every weakly fair execution of the reference terminates with
    the result buffer at the specification's result of the arguments' contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread _ _).loc main_v14)
        = res (m ((c.tc : Thread _ _).loc main_arg0)) (m ((c.tc : Thread _ _).loc main_arg1))
            (m ((c.tc : Thread _ _).loc main_arg2)) shapeCasts_S4096x16384_S4096x256x64
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2) :=
  (θ_run defs _ _).mono (fun _ h c => ⟨(h c).1.trans (refTerm_eq _ _ _), (h c).2⟩) (RefRun.run (F := Ideal) m ρ)

end Cert.ReferenceIdeal.RefValue

end
-- ==== Proof.lean ====
/-
  The certificate of a masked linear layer: `out[p, q] = ∑ k, x[p, k] · (⌊q / 64⌋ ≠ k ? w[k, q] : 0) + b[q]`, re-laid as
  [4096, 256, 64], computed by a Pallas kernel tiled 1024 × 1024 over a 4 × 16 grid (the mask rebuilt inside the
  kernel from iotas and the grid position, the weight selected against a zero, both operands rounded to bf16 on the way
  into the matrix unit) against jnp's `x @ (w * mask) + b` (the mask converted to 1.0 / 0.0 and multiplied in).

  At the ideal instance a float is an extended real and a change of format is the identity, so the kernel's
  matrix product into a zero accumulator and the host's `dot_general` are the same sum over the 256 input features; the
  two ways of masking agree because `w · 1 = w` and `w · 0 = 0` hold for every extended real; and both programs take
  ⌊q / 64⌋ from the truncating signed division with a correction that never fires on a non-negative column number
  (Proof/Spec.lean). Each side's run is read to the same function of the argument arrays (Proof/KernelValue.lean over
  the kernel's frame run; Proof/RefValue.lean over the reference's run), which gives the algebraic claim; the frames are
  the frame runs themselves (the reference's with the result dropped); the ideal pass rewrote nothing, so `preserves`
  is `True`.
-/
import proofs.«153031_j25228637896773_1_alg».proof.Defs
import proofs.«153031_j25228637896773_1_alg».proof.Proof.Gen.Kernel
import proofs.«153031_j25228637896773_1_alg».proof.Proof.Gen.KernelIdeal
import proofs.«153031_j25228637896773_1_alg».proof.Proof.Gen.ReferenceIdeal
import proofs.«153031_j25228637896773_1_alg».proof.Proof.Gen.Pre_finite_inputs
import proofs.«153031_j25228637896773_1_alg».proof.Proof.FrameKernel
import proofs.«153031_j25228637896773_1_alg».proof.Proof.FrameKernelIdeal
import proofs.«153031_j25228637896773_1_alg».proof.Proof.KernelValue
import proofs.«153031_j25228637896773_1_alg».proof.Proof.RefValue
import Idealize.ShloMosaic.Adequacy
import Idealize.ShloMosaic.Init

noncomputable section

namespace Cert.Proof

open Idealize.ShloMosaic Idealize.SL.Sem

/-- The word-level kernel runs and keeps its arguments: its frame run. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- From memories agreeing on the arguments both programs end with the masked linear layer of the arguments, re-laid. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
